-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S28672x4096 : Shape := ⟨2, ![28672, 4096]⟩
abbrev S4096x14336 : Shape := ⟨2, ![4096, 14336]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S28672x4096 : S_.BroadcastsInDim S28672x4096 (![] : Fin 0 → Fin S28672x4096.rank)
  reducesTo_S28672x4096_S_d0_1 : S28672x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn {F : FTy → Type} [FloatOps F] (main_arg0 : FVec F S4096x4096 .f32) (main_arg1 : FVec F S28672x4096 .f32) (main_arg2 : FVec F S4096x14336 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S28672x4096 .f32 := Host.absf main_arg1
  let main_cst_0 : FVec F S_ .f32 := constant S_ .f32 0x7F800000#32
  let main_v5 : FVec F S28672x4096 .f32 := broadcastInDim S28672x4096 ![] bcast_S_S28672x4096 main_cst_0
  let main_v6 : IVec S28672x4096 1 := cmpf .olt main_v4 main_v5
  let main_c_1 : IVec S_ 1 := constantI S_ 1 1#1
  let main_v7 : IVec S_ 1 := (fun x v => Host.reduce IntOp.andi x v reducesTo_S28672x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  main_v13
-- ==== Kernel.lean ====
abbrev S4096x4096 : Shape := ⟨2, ![4096, 4096]⟩
abbrev S28672x4096 : Shape := ⟨2, ![28672, 4096]⟩
abbrev S4096x14336 : Shape := ⟨2, ![4096, 14336]⟩
abbrev S14336x4096 : Shape := ⟨2, ![14336, 4096]⟩
abbrev S256x4096 : Shape := ⟨2, ![256, 4096]⟩
abbrev S512x4096 : Shape := ⟨2, ![512, 4096]⟩
abbrev S4096x512 : Shape := ⟨2, ![4096, 512]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S28672x4096, .f32⟩
  | .hbm, ⟨2, _⟩ => ⟨S4096x14336, .f32⟩
  | .hbm, ⟨3, _⟩ => ⟨S4096x4096, .bf16⟩
  | .hbm, ⟨4, _⟩ => ⟨S14336x4096, .f32⟩
  | .hbm, ⟨5, _⟩ => ⟨S14336x4096, .bf16⟩
  | .hbm, ⟨6, _⟩ => ⟨S14336x4096, .f32⟩
  | .hbm, ⟨7, _⟩ => ⟨S14336x4096, .bf16⟩
  | .hbm, ⟨8, _⟩ => ⟨S4096x14336, .bf16⟩
  | .hbm, ⟨9, _⟩ => ⟨S4096x4096, .f32⟩
  | .local _ .vmem, ⟨0, _⟩ => ⟨S256x4096, .bf16⟩
  | .local _ .vmem, ⟨1, _⟩ => ⟨S256x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S4096x512, .bf16⟩
  | .local _ .vmem, ⟨7, _⟩ => ⟨S4096x512, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 28], ![false, false]⟩

def k0_cond2 (i : grid0.Coords) : BitVec 1 :=
  let arg1 : BitVec 32 := BitVec.ofNat 32 (i 1).val
  let c27_i32 : BitVec 32 := 27#32
  let v23 : BitVec 1 := Scalar.cmpi .eq arg1 c27_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  slices_S28672x4096_S14336x4096_0_0 : S28672x4096.Slices ![0, 0] S14336x4096
  slices_S28672x4096_S14336x4096_14336_0 : S28672x4096.Slices ![14336, 0] S14336x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S256x4096_S512x4096_S256x512_1_1_0_0_n_n_wf : DotDims.WF S256x4096 S512x4096 S256x512 [1] [1] [0] [0] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .bf16 = 32 ∨ (Rect.block (s := S14336x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x14336.size a
  hwx0_3 : ∀ i : grid0.Coords, EltTy.bits .bf16 = 32 ∨ (Rect.block (s := S4096x14336) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S28672x4096 : Shape := ⟨2, ![28672, 4096]⟩
abbrev S4096x14336 : Shape := ⟨2, ![4096, 14336]⟩
abbrev S4096x28672 : Shape := ⟨2, ![4096, 28672]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S28672x4096, .f32⟩
  | .hbm, ⟨2, _⟩ => ⟨S4096x14336, .f32⟩
  | .hbm, ⟨3, _⟩ => ⟨S4096x28672, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S4096x28672_S4096x14336_0_0 : S4096x28672.Slices ![0, 0] S4096x14336
  slices_S4096x28672_S4096x14336_0_14336 : S4096x28672.Slices ![0, 14336] S4096x14336
  bcast_S_S4096x14336 : S_.BroadcastsInDim S4096x14336 (![] : Fin 0 → Fin S4096x14336.rank)
  dot_S4096x4096_S28672x4096_S4096x28672_1_1_0_0_n_n_wf : DotDims.WF S4096x4096 S28672x4096 S4096x28672 [1] [1] [0] [0] [] []
  dot_S4096x14336_S4096x14336_S4096x4096_1_1_0_0_n_n_wf : DotDims.WF S4096x14336 S4096x14336 S4096x4096 [1] [1] [0] [0] [] []

variable [Facts₀]

def dot_S4096x4096_S28672x4096_S4096x28672_1_1_0_0_n_n : DotDims S4096x4096 S28672x4096 S4096x28672 where
  lhsContracting := [1]
  rhsContracting := [1]
  lhsNonContracting := [0]
  rhsNonContracting := [0]
  lhsBatch := []
  rhsBatch := []
  wf := dot_S4096x4096_S28672x4096_S4096x28672_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Spec.lean ====
/-
  The gated feed-forward layer as ONE function of its three argument arrays, over the extended reals.

  With x : [4096 tokens, 4096 features], w : [28672, 4096] (rows 0 … 14335 the gate weights, rows 14336 … 28671 the
  up weights) and d : [4096 outputs, 14336 hidden units]:

      proj t o    = Σ_k x[t,k] · w[o,k]
      hidden t i  = (g · σ(g)) · u        with g = proj t i, u = proj t (14336 + i), σ(g) = 1 / (1 + e^(-g))
      G[t,h]      = Σ_i hidden t i · d[h,i]

  Both programs compute exactly this; they differ only in how the sum over the 14336 hidden units is grouped (one
  sum, or 28 consecutive blocks of 512 added to a running total that starts at zero), which is the same number in
  any additive commutative monoid. No finiteness of the entries is needed anywhere.
-/
import Idealize.ShloMosaic.PureOps.Ideal
import Idealize.ShloMosaic.Lib.ValueIdx
import Idealize.ShloMosaic.Lib.IdealHost
import proofs.«180777_j10093173146228_1_alg».proof.Proof.LibSums

noncomputable section

namespace Cert.GatedMlp

open Idealize.ShloMosaic Idealize.ShloMosaic.ValueIdx
open scoped BigOperators

/-- The token array, the stacked gate/up weights, the down weights: literal shapes. -/
abbrev XS : Shape := ⟨2, ![4096, 4096]⟩
abbrev WS : Shape := ⟨2, ![28672, 4096]⟩
abbrev DS : Shape := ⟨2, ![4096, 14336]⟩

/-- Row `i` of the gate half of the stacked weights. -/
def gateRow (i : Fin 14336) : Fin 28672 := ⟨i.val, by have := i.isLt; omega⟩
/-- Row `i` of the up half of the stacked weights: 14336 rows further down. -/
def upRow (i : Fin 14336) : Fin 28672 := ⟨14336 + i.val, by have := i.isLt; omega⟩

/-- Token `t` against weight row `o`: the inner product over the 4096 features. -/
def proj (x : XS.Idx → EReal) (w : WS.Idx → EReal) (t : Fin 4096) (o : Fin 28672) : EReal :=
  ∑ k : Fin 4096, x (ix2 t k) * w (ix2 o k)

/-- The gated hidden unit: `(g · σ(g)) · u`, in this order of the products. -/
def gated (g u : EReal) : EReal := (g * Ideal.logistic g) * u

/-- Hidden unit `i` of token `t`. -/
def hidden (x : XS.Idx → EReal) (w : WS.Idx → EReal) (t : Fin 4096) (i : Fin 14336) : EReal :=
  gated (proj x w t (gateRow i)) (proj x w t (upRow i))

/-- One summand of the down projection. -/
def term (x : XS.Idx → EReal) (w : WS.Idx → EReal) (d : DS.Idx → EReal) (t h : Fin 4096) (i : Fin 14336) : EReal :=
  hidden x w t i * d (ix2 h i)

/-- The layer's result, index by index. -/
def G (x : XS.Idx → EReal) (w : WS.Idx → EReal) (d : DS.Idx → EReal) : XS.Idx → EReal :=
  fun j => ∑ i : Fin 14336, term x w d (j 0) (j 1) i

/-- The logistic function spelt with a negation, an exponential, a sum with one and a quotient of one — with the
    ones given as the f32 word of 1.0 — is the logistic function. -/
theorem logistic_spelt (g : EReal) :
    Ideal.div (Ideal.ofBits .f32 0x3F800000#32) (Ideal.ofBits .f32 0x3F800000#32 + Ideal.exp (-g)) = Ideal.logistic g := by
  rw [Ideal.ofBits_one_f32]; rfl

/-- The 14336 hidden units as 28 blocks of 512: the sum of the first `n` blocks of the down projection's summands. -/
def partialG (x : XS.Idx → EReal) (w : WS.Idx → EReal) (d : DS.Idx → EReal) (t h : Fin 4096) (n : ℕ) (hn : n ≤ 28) : EReal :=
  Cert.Sums.prefixBlocks 28 512 (fun i : Fin (28 * 512) => term x w d t h i) n hn

theorem partialG_zero (x : XS.Idx → EReal) (w : WS.Idx → EReal) (d : DS.Idx → EReal) (t h : Fin 4096) :
    partialG x w d t h 0 (Nat.zero_le 28) = 0 :=
  Cert.Sums.prefixBlocks_zero 28 512 _

/-- One more block: the running total grows by the sum over the 512 hidden units `512·n + r`. -/
theorem partialG_succ (x : XS.Idx → EReal) (w : WS.Idx → EReal) (d : DS.Idx → EReal) (t h : Fin 4096) (n : ℕ) (hn : n < 28) :
    partialG x w d t h (n + 1) hn
      = partialG x w d t h n (Nat.le_of_lt hn) + ∑ r : Fin 512, term x w d t h ⟨512 * n + r.val, by have := r.isLt; omega⟩ :=
  Cert.Sums.prefixBlocks_succ 28 512 _ n hn

/-- All 28 blocks: the layer's result. -/
theorem partialG_all (x : XS.Idx → EReal) (w : WS.Idx → EReal) (d : DS.Idx → EReal) (t h : Fin 4096) :
    partialG x w d t h 28 (Nat.le_refl 28) = G x w d (ix2 t h) :=
  Cert.Sums.prefixBlocks_all 28 512 _

end Cert.GatedMlp

end
-- ==== Proof.Payload.lean ====
/-
  One grid point's arithmetic, read at an index, at the exact instance.

  A point holds a tile `a` of 256 token rows (all 4096 features), tiles `bg`, `bu` of 512 gate and 512 up weight rows,
  and a tile `bd` of the down weights (all 4096 output rows, 512 hidden columns). Its body forms

      g[p,r] = Σ_k a[p,k] · bg[r,k]        u[p,r] = Σ_k a[p,k] · bu[r,k]        (both products contract the feature axis)
      s[p,q] = Σ_r ((g[p,r] · σ(g[p,r])) · u[p,r]) · bd[q,r]                     (contracts the 512 hidden columns)

  and stores `acc + s` over the running total `acc`. Changes of float format are the identity on the extended reals, a
  product into the zero tile is the bare sum, and a cast between equal shapes is the identity.
-/
import proofs.«180777_j10093173146228_1_alg».proof.Proof.Gen.KernelIdeal.Skeleton
import proofs.«180777_j10093173146228_1_alg».proof.Proof.Spec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx
open scoped BigOperators

/-! ## The two products' operand indices -/

theorem lhs_proj_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_proj_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_proj_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_proj_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

theorem lhs_down_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_down_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem rhs_down_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_down_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-! ## The two products at an index -/

/-- Token rows against weight rows, into the zero tile: entry (p, r) is the inner product of row `p` of `a` and row `r`
    of `b` over the 4096 features. -/
theorem proj_tile_apply (a : FVec Ideal S256x4096 .bf16) (b : FVec Ideal S512x4096 .bf16) (p : Fin 256) (r : Fin 512) :
    matmul dot_S256x4096_S512x4096_S256x512_1_1_0_0_n_n none a b (constant (F := Ideal) S256x512 .f32 0x00000000#32) (ix2 p r)
      = ∑ k : Fin 4096, a (ix2 p k) * b (ix2 r k) := by
  simp only [matmul]
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p r) ((ValueIdx.contrEquiv1 dot_S256x4096_S512x4096_S256x512_1_1_0_0_n_n 4096 rfl rfl).symm k) = ix2 p k := funext fun a => Fin.ext (by
    match a with
    | ⟨0, _⟩ => exact lhs_proj_0 _ _
    | ⟨1, _⟩ => exact (lhs_proj_1 _ _).trans hk)
  have er : dot_S256x4096_S512x4096_S256x512_1_1_0_0_n_n.rhsIdx (ix2 p r) ((ValueIdx.contrEquiv1 dot_S256x4096_S512x4096_S256x512_1_1_0_0_n_n 4096 rfl rfl).symm k) = ix2 r k := funext fun a => Fin.ext (by
    match a with
    | ⟨0, _⟩ => exact rhs_proj_0 _ _
    | ⟨1, _⟩ => exact (rhs_proj_1 _ _).trans hk)
  rw [el, er]

/-- Hidden columns against the down tile's columns, into the zero tile: entry (p, q) is the inner product of row `p` of
    `h` and row `q` of `b` over the 512 hidden columns. -/
theorem down_tile_apply (h : FVec Ideal S256x512 .bf16) (b : FVec Ideal S4096x512 .bf16) (p : Fin 256) (q : Fin 4096) :
    matmul dot_S256x512_S4096x512_S256x4096_1_1_0_0_n_n none h b (constant (F := Ideal) S256x4096 .f32 0x00000000#32) (ix2 p q)
      = ∑ r : Fin 512, h (ix2 p r) * b (ix2 q r) := by
  simp only [matmul]
  rw [Ideal.matmul_constant_zero_apply, ← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 p q) ((ValueIdx.contrEquiv1 dot_S256x512_S4096x512_S256x4096_1_1_0_0_n_n 512 rfl rfl).symm k) = ix2 p k := funext fun a => Fin.ext (by
    match a with
    | ⟨0, _⟩ => exact lhs_down_0 _ _
    | ⟨1, _⟩ => exact (lhs_down_1 _ _).trans hk)
  have er : dot_S256x512_S4096x512_S256x4096_1_1_0_0_n_n.rhsIdx (ix2 p q) ((ValueIdx.contrEquiv1 dot_S256x512_S4096x512_S256x4096_1_1_0_0_n_n 512 rfl rfl).symm k) = ix2 q k := funext fun a => Fin.ext (by
    match a with
    | ⟨0, _⟩ => exact rhs_down_0 _ _
    | ⟨1, _⟩ => exact (rhs_down_1 _ _).trans hk)
  rw [el, er]

/-! ## The body's two stored values at an index -/

/-- The reset stores the zero tile. -/
theorem reset_apply (j : S256x4096.Idx) : (k0_pay1 (F := Ideal)) j = 0 := by
  unfold k0_pay1
  rw [shapeCast_self]
  show Ideal.ofBits .f32 0x00000000#32 = 0
  exact Ideal.ofBits_zero_f32

/-- The accumulation stores, at (p, q), the running total there plus the point's contribution: the sum over the 512
    hidden columns of the gated unit times the down weight. -/
theorem step_apply (a : FVec Ideal S256x4096 .bf16) (bg bu : FVec Ideal S512x4096 .bf16) (bd : FVec Ideal S4096x512 .bf16)
    (acc : FVec Ideal S256x4096 .f32) (p : Fin 256) (q : Fin 4096) :
    k0_pay2 (F := Ideal) a bg bu bd acc (ix2 p q)
      = acc (ix2 p q) + ∑ r : Fin 512,
          Cert.GatedMlp.gated (∑ k : Fin 4096, a (ix2 p k) * bg (ix2 r k)) (∑ k : Fin 4096, a (ix2 p k) * bu (ix2 r k))
            * bd (ix2 q r) := by
  unfold k0_pay2
  simp only [shapeCast_self]
  show acc (ix2 p q) + _ = _
  refine congrArg (acc (ix2 p q) + ·) ?_
  refine (down_tile_apply _ bd p q).trans ?_
  refine Finset.sum_congr rfl fun r _ => ?_
  show ((matmul dot_S256x4096_S512x4096_S256x512_1_1_0_0_n_n none a bg (constant (F := Ideal) S256x512 .f32 0x00000000#32) (ix2 p r)
        * Ideal.logistic (matmul dot_S256x4096_S512x4096_S256x512_1_1_0_0_n_n none a bg (constant (F := Ideal) S256x512 .f32 0x00000000#32) (ix2 p r)))
        * matmul dot_S256x4096_S512x4096_S256x512_1_1_0_0_n_n none a bu (constant (F := Ideal) S256x512 .f32 0x00000000#32) (ix2 p r)) * bd (ix2 q r) = _
  rw [proj_tile_apply a bg p r, proj_tile_apply a bu p r]
  rfl

end Cert.KernelIdeal.Tile

end
-- ==== Proof.Pieces.lean ====
/-
  What one run of the body leaves behind, as values, in each of its three control cases.

  The body keeps a running total in a scratch tile. At the first hidden block of a token tile it stores the zero tile
  there and then adds the point's contribution; at every other block it adds the contribution to what the point before
  left; at the last block it also copies the total to the output tile. Read back from the stores the run found:

      first block   : scratch = step(tiles, 0)
      middle blocks : scratch = step(tiles, previous scratch)
      last block    : scratch = step(tiles, previous scratch), and the output tile holds the same

  where `step` is the body's accumulate value and every load reads a whole tile.
-/
import proofs.«180777_j10093173146228_1_alg».proof.Proof.Gen.KernelIdeal.Frame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic Idealize.SL Idealize.SL.Sem

variable {F : FTy → Type} [FloatOps F]

/-- A tile's loads and stores start at the tile's origin. -/
theorem hz : (![0, 0] : Fin 2 → Nat) = fun _ => 0 := funext fun a => by fin_cases a <;> rfl

/-- First hidden block: the reset, then the contribution added to the zero tile just stored. -/
theorem scratch_first (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x4096 .f32) (harg7 : arg7.IsWhole) (hc0 : cond0_0 i) (hc1 : ¬cond0_1 i) (x0 : Vec F S256x4096 .bf16) (x1 : Vec F S512x4096 .bf16) (x2 : Vec F S512x4096 .bf16) (x3 : Vec F S4096x512 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread, harg7.read_unread, View.ld_unit_zero (S := S256x4096) hz, View.ld_unit_zero (S := S512x4096) hz, View.ld_unit_zero (S := S4096x512) hz]

/-- A middle hidden block: the contribution added to what the point before left. -/
theorem scratch_middle (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : ¬cond0_1 i) (x0 : Vec F S256x4096 .bf16) (x1 : Vec F S512x4096 .bf16) (x2 : Vec F S512x4096 .bf16) (x3 : Vec F S4096x512 .bf16) (xs0 : Vec F S256x4096 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S256x4096) hz]
  simp only [View.readAt_eq_ld, harg2.read_unread, harg3.read_unread, harg4.read_unread, harg5.read_unread, harg7.read_unread, View.ld_unit_zero (S := S256x4096) hz, View.ld_unit_zero (S := S512x4096) hz, View.ld_unit_zero (S := S4096x512) hz]

/-- The last hidden block leaves the same in the scratch … -/
theorem scratch_last (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i) (x0 : Vec F S256x4096 .bf16) (x1 : Vec F S512x4096 .bf16) (x2 : Vec F S512x4096 .bf16) (x3 : Vec F S4096x512 .bf16) (xs0 : Vec F S256x4096 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S256x4096) hz]
  simp only [View.readAt_eq_ld, harg2.read_unread, harg3.read_unread, harg4.read_unread, harg5.read_unread, harg7.read_unread, View.ld_unit_zero (S := S256x4096) hz, View.ld_unit_zero (S := S512x4096) hz, View.ld_unit_zero (S := S4096x512) hz]

/-- … and copies it to the output tile: the total read back from the store just made. -/
theorem output_last (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S512x4096 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i) (x0 : Vec F S256x4096 .bf16) (x1 : Vec F S512x4096 .bf16) (x2 : Vec F S512x4096 .bf16) (x3 : Vec F S4096x512 .bf16) (xs0 : Vec F S256x4096 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S256x4096) hz, View.readCov_unit_zero (S := S256x4096) _ hz]
  simp only [View.readAt_eq_ld, harg2.read_unread, harg3.read_unread, harg4.read_unread, harg5.read_unread, harg7.read_unread, View.ld_unit_zero (S := S256x4096) hz, View.ld_unit_zero (S := S512x4096) hz, View.ld_unit_zero (S := S4096x512) hz]

end Cert.KernelIdeal.Tile

end
-- ==== Proof.Blocks.lean ====
/-
  The tiles a grid point works on, as entries of the three argument arrays.

  The 448 points are numbered token tile by token tile: point `t` is token tile `t / 28` (256 rows) and hidden block
  `t % 28` (512 hidden units). Before the region the arrays are only re-typed (the identity on the extended reals)
  and the stacked weights cut into their gate half (rows 0 … 14335) and up half (rows 14336 … 28671). So at point `t`

      token tile  [p, k] = x[256·(t/28) + p, k]
      gate tile   [r, k] = w[512·(t%28) + r, k]
      up tile     [r, k] = w[14336 + 512·(t%28) + r, k]
      down tile   [q, r] = d[q, 512·(t%28) + r]
-/
import proofs.«180777_j10093173146228_1_alg».proof.Proof.Gen.KernelIdeal.Frame
import proofs.«180777_j10093173146228_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Tile

open Cert.KernelIdeal Cert.KernelIdeal.Gen Cert.GatedMlp
open Idealize.ShloMosaic Idealize.ShloMosaic.TcCoe Idealize.ShloMosaic.ValueIdx Idealize.SL.Sem Idealize.ShloMosaic.StableHlo

variable (m : (ℓ : Loc nD τ sig) → Buf (Elt Ideal) ℓ)

theorem point_lt (t : Fin cfg0.N) : t.val < 448 := lt_of_lt_of_eq t.isLt (show cfg0.N = 448 from N_0)

/-- Row `p` of the token tile of point `t`, as a row of the token array. -/
def tokRow (t : Fin cfg0.N) (p : Fin 256) : Fin 4096 :=
  ⟨256 * (t.val / 28) + p.val, by have := point_lt t; have := p.isLt; omega⟩

/-- Hidden unit `r` of the hidden block of point `t`, among the 14336 hidden units. -/
def hidCol (t : Fin cfg0.N) (r : Fin 512) : Fin 14336 :=
  ⟨512 * (t.val % 28) + r.val, by have := r.isLt; omega⟩

/-! ## The windows' block indices at every point -/

theorem tokens_index : ∀ t : Fin cfg0.N, win0_0.index t 0 = t.val / 28 ∧ win0_0.index t 1 = 0 :=
  (by decide +kernel : ∀ t : Fin grid0.N, win0_0.index t 0 = t.val / 28 ∧ win0_0.index t 1 = 0)
theorem gate_index : ∀ t : Fin cfg0.N, win0_1.index t 0 = t.val % 28 ∧ win0_1.index t 1 = 0 :=
  (by decide +kernel : ∀ t : Fin grid0.N, win0_1.index t 0 = t.val % 28 ∧ win0_1.index t 1 = 0)
theorem up_index : ∀ t : Fin cfg0.N, win0_2.index t 0 = t.val % 28 ∧ win0_2.index t 1 = 0 :=
  (by decide +kernel : ∀ t : Fin grid0.N, win0_2.index t 0 = t.val % 28 ∧ win0_2.index t 1 = 0)
theorem down_index : ∀ t : Fin cfg0.N, win0_3.index t 0 = 0 ∧ win0_3.index t 1 = t.val % 28 :=
  (by decide +kernel : ∀ t : Fin grid0.N, win0_3.index t 0 = 0 ∧ win0_3.index t 1 = t.val % 28)
theorem out_index : ∀ t : Fin cfg0.N, win0_4.index t 0 = t.val / 28 ∧ win0_4.index t 1 = 0 :=
  (by decide +kernel : ∀ t : Fin grid0.N, win0_4.index t 0 = t.val / 28 ∧ win0_4.index t 1 = 0)

/-! ## The arrays as the region finds them -/

theorem tokens_arr (c : Dev nD) : (V m c main_v0 : S4096x4096.Idx → EReal) = m ((c : Thread nD τ).loc main_arg0) := by
  dsimp only [V, hostOps0]; after_results; rfl

theorem gate_arr (c : Dev nD) (r : Fin 14336) (k : Fin 4096) :
    (V m c main_v2 : S14336x4096.Idx → EReal) (ix2 r k) = m ((c : Thread nD τ).loc main_arg1) (ix2 (gateRow r) k) := by
  have e : (V m c main_v2 : S14336x4096.Idx → EReal)
      = extractStridedSlice S14336x4096 ![0, 0] (m ((c : Thread nD τ).loc main_arg1)) slices_S28672x4096_S14336x4096_0_0 := by
    dsimp only [V, hostOps0]; after_results; rfl
  rw [e]
  exact extractStridedSlice_apply ![0, 0] _ slices_S28672x4096_S14336x4096_0_0 (ix2 r k) (ix2 (gateRow r) k) (fun a => match a with
    | ⟨0, _⟩ => by show r.val = 0 + r.val; omega
    | ⟨1, _⟩ => by show k.val = 0 + k.val; omega)

theorem up_arr (c : Dev nD) (r : Fin 14336) (k : Fin 4096) :
    (V m c main_v4 : S14336x4096.Idx → EReal) (ix2 r k) = m ((c : Thread nD τ).loc main_arg1) (ix2 (upRow r) k) := by
  have e : (V m c main_v4 : S14336x4096.Idx → EReal)
      = extractStridedSlice S14336x4096 ![14336, 0] (m ((c : Thread nD τ).loc main_arg1)) slices_S28672x4096_S14336x4096_14336_0 := by
    dsimp only [V, hostOps0]; after_results; rfl
  rw [e]
  exact extractStridedSlice_apply ![14336, 0] _ slices_S28672x4096_S14336x4096_14336_0 (ix2 r k) (ix2 (upRow r) k) (fun a => match a with
    | ⟨0, _⟩ => by show 14336 + r.val = 14336 + r.val; rfl
    | ⟨1, _⟩ => by show k.val = 0 + k.val; omega)

theorem down_arr (c : Dev nD) : (V m c main_v5 : S4096x14336.Idx → EReal) = m ((c : Thread nD τ).loc main_arg2) := by
  dsimp only [V, hostOps0]; after_results; rfl

/-! ## The four input tiles of a point, at coordinates -/

theorem tokens_tile (c : Dev nD) (t : Fin cfg0.N) (p : Fin 256) (k : Fin 4096) :
    (iblk m c 0 t : Vec Ideal S256x4096 .bf16) (ix2 p k) = m ((c : Thread nD τ).loc main_arg0) (ix2 (tokRow t p) k) := by
  unfold iblk
  rw [View.read_apply]
  show (V m c main_v0 : S4096x4096.Idx → EReal) _ = _
  rw [tokens_arr]
  congr 1
  funext a
  apply Fin.ext
  match a with
  | ⟨0, _⟩ => show win0_0.index t 0 * 256 + 1 * p.val = 256 * (t.val / 28) + p.val; rw [(tokens_index t).1]; omega
  | ⟨1, _⟩ => show win0_0.index t 1 * 4096 + 1 * k.val = k.val; rw [(tokens_index t).2]; omega

theorem gate_tile (c : Dev nD) (t : Fin cfg0.N) (r : Fin 512) (k : Fin 4096) :
    (iblk m c 1 t : Vec Ideal S512x4096 .bf16) (ix2 r k) = m ((c : Thread nD τ).loc main_arg1) (ix2 (gateRow (hidCol t r)) k) := by
  unfold iblk
  rw [View.read_apply]
  have he : ((cfg0.win 1).blk t).view.emb (ix2 r k) = (ix2 (hidCol t r) k : S14336x4096.Idx) := by
    funext a
    apply Fin.ext
    match a with
    | ⟨0, _⟩ => show win0_1.index t 0 * 512 + 1 * r.val = 512 * (t.val % 28) + r.val; rw [(gate_index t).1]; omega
    | ⟨1, _⟩ => show win0_1.index t 1 * 4096 + 1 * k.val = k.val; rw [(gate_index t).2]; omega
  show (V m c main_v2 : S14336x4096.Idx → EReal) (((cfg0.win 1).blk t).view.emb (ix2 r k)) = _
  rw [he]
  exact gate_arr m c (hidCol t r) k

theorem up_tile (c : Dev nD) (t : Fin cfg0.N) (r : Fin 512) (k : Fin 4096) :
    (iblk m c 2 t : Vec Ideal S512x4096 .bf16) (ix2 r k) = m ((c : Thread nD τ).loc main_arg1) (ix2 (upRow (hidCol t r)) k) := by
  unfold iblk
  rw [View.read_apply]
  have he : ((cfg0.win 2).blk t).view.emb (ix2 r k) = (ix2 (hidCol t r) k : S14336x4096.Idx) := by
    funext a
    apply Fin.ext
    match a with
    | ⟨0, _⟩ => show win0_2.index t 0 * 512 + 1 * r.val = 512 * (t.val % 28) + r.val; rw [(up_index t).1]; omega
    | ⟨1, _⟩ => show win0_2.index t 1 * 4096 + 1 * k.val = k.val; rw [(up_index t).2]; omega
  show (V m c main_v4 : S14336x4096.Idx → EReal) (((cfg0.win 2).blk t).view.emb (ix2 r k)) = _
  rw [he]
  exact up_arr m c (hidCol t r) k

theorem down_tile (c : Dev nD) (t : Fin cfg0.N) (q : Fin 4096) (r : Fin 512) :
    (iblk m c 3 t : Vec Ideal S4096x512 .bf16) (ix2 q r) = m ((c : Thread nD τ).loc main_arg2) (ix2 q (hidCol t r)) := by
  unfold iblk
  rw [View.read_apply]
  show (V m c main_v5 : S4096x14336.Idx → EReal) _ = _
  rw [down_arr]
  congr 1
  funext a
  apply Fin.ext
  match a with
  | ⟨0, _⟩ => show win0_3.index t 0 * 4096 + 1 * q.val = q.val; rw [(down_index t).1]; omega
  | ⟨1, _⟩ => show win0_3.index t 1 * 512 + 1 * r.val = 512 * (t.val % 28) + r.val; rw [(down_index t).2]; omega

end Cert.KernelIdeal.Tile

end
-- ==== Proof.Invariant.lean ====
/-
  The running total, point by point.

  Within one token tile the 28 hidden blocks are visited in order. After the point of hidden block `j` the scratch
  tile holds, at (p, q), the sum of the down projection's summands over the first `j + 1` hidden blocks — for the
  token row `256·(t/28) + p` and the output column `q`:

      block 0      : 0 + (sum over block 0)
      block j ≥ 1  : (total after block j − 1, same token tile) + (sum over block j)

  by induction over the points. After block 27 this is the whole sum over the 14336 hidden units, and that point
  copies it to the output tile.
-/
import proofs.«180777_j10093173146228_1_alg».proof.Proof.Payload
import proofs.«180777_j10093173146228_1_alg».proof.Proof.Pieces
import proofs.«180777_j10093173146228_1_alg».proof.Proof.Blocks
import proofs.«180777_j10093173146228_1_alg».proof.Proof.Gen.KernelIdeal.Value

set_option maxRecDepth 16384

noncomputable section

namespace Cert.KernelIdeal.Tile

open Cert.KernelIdeal Cert.KernelIdeal.Gen Cert.GatedMlp
open Idealize.ShloMosaic Idealize.ShloMosaic.TcCoe Idealize.ShloMosaic.ValueIdx Idealize.SL.Sem
open scoped BigOperators

variable (m : (ℓ : Loc nD τ sig) → Buf (Elt Ideal) ℓ)

/-- The three argument arrays as functions on the extended reals. -/
abbrev X (c : Dev nD) : XS.Idx → EReal := m ((c : Thread nD τ).loc main_arg0)
abbrev W (c : Dev nD) : WS.Idx → EReal := m ((c : Thread nD τ).loc main_arg1)
abbrev D (c : Dev nD) : DS.Idx → EReal := m ((c : Thread nD τ).loc main_arg2)

/-- The four input tiles of point `t`, at their literal shapes. -/
abbrev tokTile (c : Dev nD) (t : Fin cfg0.N) : FVec Ideal S256x4096 .bf16 := iblk m c 0 t
abbrev gateTile (c : Dev nD) (t : Fin cfg0.N) : FVec Ideal S512x4096 .bf16 := iblk m c 1 t
abbrev upTile (c : Dev nD) (t : Fin cfg0.N) : FVec Ideal S512x4096 .bf16 := iblk m c 2 t
abbrev downTile (c : Dev nD) (t : Fin cfg0.N) : FVec Ideal S4096x512 .bf16 := iblk m c 3 t

/-- One point's accumulate, in entries of the argument arrays: the running total at (p, q) grows by the sum, over the
    point's 512 hidden units, of the down projection's summand for token row `tokRow t p` and output column `q`. -/
theorem point_step (c : Dev nD) (t : Fin cfg0.N) (acc : FVec Ideal S256x4096 .f32) (p : Fin 256) (q : Fin 4096) :
    k0_pay2 (F := Ideal) (tokTile m c t) (gateTile m c t) (upTile m c t) (downTile m c t) acc (ix2 p q)
      = acc (ix2 p q) + ∑ r : Fin 512, term (X m c) (W m c) (D m c) (tokRow t p) q (hidCol t r) := by
  refine (step_apply (tokTile m c t) (gateTile m c t) (upTile m c t) (downTile m c t) acc p q).trans ?_
  refine congrArg (acc (ix2 p q) + ·) (Finset.sum_congr rfl fun r _ => ?_)
  have eg : (∑ k : Fin 4096, tokTile m c t (ix2 p k) * gateTile m c t (ix2 r k))
      = proj (X m c) (W m c) (tokRow t p) (gateRow (hidCol t r)) :=
    Finset.sum_congr rfl fun k _ => by
      rw [show tokTile m c t (ix2 p k) = _ from tokens_tile m c t p k, show gateTile m c t (ix2 r k) = _ from gate_tile m c t r k]
  have eu : (∑ k : Fin 4096, tokTile m c t (ix2 p k) * upTile m c t (ix2 r k))
      = proj (X m c) (W m c) (tokRow t p) (upRow (hidCol t r)) :=
    Finset.sum_congr rfl fun k _ => by
      rw [show tokTile m c t (ix2 p k) = _ from tokens_tile m c t p k, show upTile m c t (ix2 r k) = _ from up_tile m c t r k]
  rw [eg, eu, show downTile m c t (ix2 q r) = _ from down_tile m c t q r]
  rfl

/-! ## What each kind of point leaves in the scratch tile -/

theorem outs_first (c : Dev nD) (t : Fin cfg0.N) (h0 : t.val % 28 = 0) (h1 : ¬t.val % 28 = 27) :
    (outsAt0 m c t.val t.isLt).2 = k0_pay2 (F := Ideal) (tokTile m c t) (gateTile m c t) (upTile m c t) (downTile m c t) (k0_pay1 (F := Ideal)) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem outs_middle (c : Dev nD) (t : Fin cfg0.N) (h0 : ¬t.val % 28 = 0) (h1 : ¬t.val % 28 = 27) :
    (outsAt0 m c t.val t.isLt).2 = k0_pay2 (F := Ideal) (tokTile m c t) (gateTile m c t) (upTile m c t) (downTile m c t) (outsAt0 m c (t.val - 1) (Nat.lt_of_le_of_lt (Nat.sub_le _ _) t.isLt)).2 := by
  rw [outsAt0_B m c t h0 h1]
  dsimp only
  exact scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem outs_last (c : Dev nD) (t : Fin cfg0.N) (h0 : ¬t.val % 28 = 0) (h1 : t.val % 28 = 27) :
    (outsAt0 m c t.val t.isLt).2 = k0_pay2 (F := Ideal) (tokTile m c t) (gateTile m c t) (upTile m c t) (downTile m c t) (outsAt0 m c (t.val - 1) (Nat.lt_of_le_of_lt (Nat.sub_le _ _) t.isLt)).2 := by
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- At a last hidden block the output tile holds what the scratch tile holds. -/
theorem outs_last_output (c : Dev nD) (t : Fin cfg0.N) (h0 : ¬t.val % 28 = 0) (h1 : t.val % 28 = 27) :
    (outsAt0 m c t.val t.isLt).1 = (outsAt0 m c t.val t.isLt).2 := by
  rw [outsAt0_C m c t h0 h1]
  dsimp only
  exact (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-! ## The total after each point -/

/-- The sum over the first `t % 28 + 1` hidden blocks, for the token row of point `t`'s tile. -/
def totalAt (c : Dev nD) (t : Fin cfg0.N) (p : Fin 256) (q : Fin 4096) : EReal :=
  partialG (X m c) (W m c) (D m c) (tokRow t p) q (t.val % 28 + 1) (Nat.succ_le_of_lt (Nat.mod_lt _ (by decide)))

theorem partialG_congr (x : XS.Idx → EReal) (w : WS.Idx → EReal) (d : DS.Idx → EReal) (t h : Fin 4096) {n n' : ℕ}
    (e : n = n') (hn : n ≤ 28) (hn' : n' ≤ 28) : partialG x w d t h n hn = partialG x w d t h n' hn' := by
  subst e; rfl

/-- A first hidden block: its own sum is the total. -/
theorem first_block (c : Dev nD) (t : Fin cfg0.N) (h0 : t.val % 28 = 0) (p : Fin 256) (q : Fin 4096) :
    ∑ r : Fin 512, term (X m c) (W m c) (D m c) (tokRow t p) q (hidCol t r) = totalAt m c t p q := by
  unfold totalAt
  rw [partialG_congr _ _ _ _ _ (show t.val % 28 + 1 = 0 + 1 by omega) _ (by omega), partialG_succ _ _ _ _ _ 0 (by omega),
    partialG_zero, zero_add]
  refine Finset.sum_congr rfl fun r _ => congrArg (term _ _ _ _ q) (Fin.ext ?_)
  show 512 * (t.val % 28) + r.val = 512 * 0 + r.val
  omega

/-- A later hidden block: the total of the point before, in the same token tile, plus its own sum. -/
theorem next_block (c : Dev nD) (k : ℕ) (hn : k + 1 < cfg0.N) (h0 : ¬(k + 1) % 28 = 0) (p : Fin 256) (q : Fin 4096) (a : EReal)
    (ha : a = totalAt m c ⟨k, Nat.lt_of_succ_lt hn⟩ p q) :
    a + ∑ r : Fin 512, term (X m c) (W m c) (D m c) (tokRow ⟨k + 1, hn⟩ p) q (hidCol ⟨k + 1, hn⟩ r)
      = totalAt m c ⟨k + 1, hn⟩ p q := by
  subst ha
  unfold totalAt
  dsimp only
  have eT : tokRow ⟨k, Nat.lt_of_succ_lt hn⟩ p = tokRow ⟨k + 1, hn⟩ p :=
    Fin.ext (by show 256 * (k / 28) + p.val = 256 * ((k + 1) / 28) + p.val; omega)
  rw [eT, partialG_congr _ _ _ _ _ (show (k + 1) % 28 + 1 = (k % 28 + 1) + 1 by omega) _ (by omega),
    partialG_succ _ _ _ _ _ (k % 28 + 1) (by omega)]
  refine congrArg₂ (· + ·) rfl (Finset.sum_congr rfl fun r _ => congrArg (term _ _ _ _ q) (Fin.ext ?_))
  show 512 * ((k + 1) % 28) + r.val = 512 * (k % 28 + 1) + r.val
  omega

/-- After every point the scratch tile holds the total of the hidden blocks visited so far in its token tile. -/
theorem scratch_total (c : Dev nD) : ∀ (n : ℕ) (hn : n < cfg0.N) (p : Fin 256) (q : Fin 4096),
    (outsAt0 m c n hn).2 (ix2 p q) = totalAt m c ⟨n, hn⟩ p q := by
  intro n
  induction n with
  | zero =>
    intro hn p q
    refine (congrFun (outs_first m c ⟨0, hn⟩ rfl (show ¬(0 % 28 = 27) by decide)) (ix2 p q)).trans ?_
    refine (point_step m c ⟨0, hn⟩ _ p q).trans ?_
    rw [reset_apply, zero_add]
    exact first_block m c ⟨0, hn⟩ rfl p q
  | succ k ih =>
    intro hn p q
    by_cases h0 : (k + 1) % 28 = 0
    · have h1 : ¬(k + 1) % 28 = 27 := by omega
      refine (congrFun (outs_first m c ⟨k + 1, hn⟩ h0 h1) (ix2 p q)).trans ?_
      refine (point_step m c ⟨k + 1, hn⟩ _ p q).trans ?_
      rw [reset_apply, zero_add]
      exact first_block m c ⟨k + 1, hn⟩ h0 p q
    · have hprev := ih (Nat.lt_of_succ_lt hn) p q
      by_cases h1 : (k + 1) % 28 = 27
      · refine (congrFun (outs_last m c ⟨k + 1, hn⟩ h0 h1) (ix2 p q)).trans ?_
        refine (point_step m c ⟨k + 1, hn⟩ _ p q).trans ?_
        exact next_block m c k hn h0 p q _ hprev
      · refine (congrFun (outs_middle m c ⟨k + 1, hn⟩ h0 h1) (ix2 p q)).trans ?_
        refine (point_step m c ⟨k + 1, hn⟩ _ p q).trans ?_
        exact next_block m c k hn h0 p q _ hprev

/-- So a last hidden block's point writes, to its output tile, the layer's result for its 256 token rows. -/
theorem output_total (c : Dev nD) (t : Fin cfg0.N) (h1 : t.val % 28 = 27) (p : Fin 256) (q : Fin 4096) :
    (outsAt0 m c t.val t.isLt).1 (ix2 p q) = G (X m c) (W m c) (D m c) (ix2 (tokRow t p) q) := by
  have h0 : ¬t.val % 28 = 0 := by omega
  rw [outs_last_output m c t h0 h1, scratch_total m c t.val t.isLt p q]
  unfold totalAt
  rw [partialG_congr _ _ _ _ _ (show t.val % 28 + 1 = 28 by omega) _ (Nat.le_refl 28)]
  exact partialG_all _ _ _ _ _

end Cert.KernelIdeal.Tile

end
-- ==== Proof.Final.lean ====
/-
  From tiles to the array.

  The output array [4096, 4096] is cut into 16 tiles of 256 token rows; tile `i` is written back once, by the point
  of its last hidden block (point `28·i + 27`), and then holds the layer's result for its rows. Every row lies in
  exactly one such tile, so after the run the whole array is the layer's function of the three argument arrays.
-/
import proofs.«180777_j10093173146228_1_alg».proof.Proof.Invariant

set_option maxRecDepth 16384

noncomputable section

namespace Cert.KernelIdeal.Tile

open Cert.KernelIdeal Cert.KernelIdeal.Gen Cert.GatedMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's result as contents of the result array. -/
abbrev result (c : Dev nD) : Buf (Elt Ideal) ((c : Thread nD τ).loc main_v6) := G (X m c) (W m c) (D m c)

/-- What a writing point writes back is its tile of the layer's result. -/
theorem flushed_eq (c : Dev nD) (t : Fin cfg0.N) (hf : (cfg0.win 4).flush t = true) :
    (dats m 0 c).flushed 4 t = ((cfg0.win 4).blk t).view.read (Elt Ideal) (result m c) := by
  have h1 : t.val % 28 = 27 := (flush0_4 t).mp hf
  rw [Value.flushed4]
  refine funext fun (y : S256x4096.Idx) => ?_
  obtain ⟨p, q, rfl⟩ : ∃ (p : Fin 256) (q : Fin 4096), y = ix2 p q := ⟨y 0, y 1, eq_ix2 y⟩
  rw [View.read_apply]
  have he : ((cfg0.win 4).blk t).view.emb (ix2 p q) = (ix2 (tokRow t p) q : S4096x4096.Idx) := by
    funext a
    apply Fin.ext
    match a with
    | ⟨0, _⟩ => show win0_4.index t 0 * 256 + 1 * p.val = 256 * (t.val / 28) + p.val; rw [(out_index t).1]; omega
    | ⟨1, _⟩ => show win0_4.index t 1 * 4096 + 1 * q.val = q.val; rw [(out_index t).2]; omega
  show (outsAt0 m c t.val t.isLt).1 (ix2 p q) = G (X m c) (W m c) (D m c) (((cfg0.win 4).blk t).view.emb (ix2 p q))
  rw [he]
  exact output_total m c t h1 p q

/-- An index of the array is in point `t`'s tile iff each coordinate is in the tile's range on its axis. -/
theorem mem_tile (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v6).slice (win0_4.rect t)).set ↔ _
  rw [View.set_slice_whole, Rect.mem_set_unit]
  exact Iff.rfl

/-- Row `i 0` lies in token tile `(i 0) / 256`, which the point of that tile's last hidden block writes back. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 448 := N_0
  have ht : 28 * ((i 0).val / 256) + 27 < cfg0.N := by rw [hN]; omega
  refine ⟨⟨28 * ((i 0).val / 256) + 27, ht⟩, (flush0_4 _).mpr (by show (28 * ((i 0).val / 256) + 27) % 28 = 27; omega), ?_⟩
  rw [mem_tile]
  intro a
  match a with
  | ⟨0, _⟩ =>
    show win0_4.index ⟨28 * ((i 0).val / 256) + 27, ht⟩ 0 * 256 ≤ (i 0).val
      ∧ (i 0).val < win0_4.index ⟨28 * ((i 0).val / 256) + 27, ht⟩ 0 * 256 + 256
    rw [(out_index ⟨28 * ((i 0).val / 256) + 27, ht⟩).1]
    show (28 * ((i 0).val / 256) + 27) / 28 * 256 ≤ (i 0).val ∧ (i 0).val < (28 * ((i 0).val / 256) + 27) / 28 * 256 + 256
    omega
  | ⟨1, _⟩ =>
    show win0_4.index ⟨28 * ((i 0).val / 256) + 27, ht⟩ 1 * 4096 ≤ (i 1).val
      ∧ (i 1).val < win0_4.index ⟨28 * ((i 0).val / 256) + 27, ht⟩ 1 * 4096 + 4096
    rw [(out_index ⟨28 * ((i 0).val / 256) + 27, ht⟩).2]
    omega

/-- After the run the result array is the layer's function of the argument arrays. -/
theorem final (c : Dev nD) : (dats m 0 c).arrAt 4 cfg0.N = result m c :=
  (dats m 0 c).arrAt_eq_of_cover 4 (result m c) (flushed_eq m c) covered

/-- The run, read: the result array at the layer's result, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tile

end
-- ==== Proof.RefSpec.lean ====
/-
  The reference program computes the layer's function `G`.

  Its first product contracts the feature axis of the tokens against all 28672 stacked weight rows; the two column
  slices of that product are the gate pre-activations (columns 0 … 14335) and the up pre-activations (columns
  14336 … 28671); the gate passes through `g · (1 / (1 + e^(-g)))`, which is `g · σ(g)`; the second product contracts the
  14336 hidden units against the down weights. Read at an index, each stage is the matching piece of `G`.
-/
import proofs.«180777_j10093173146228_1_alg».proof.Proof.Gen.ReferenceIdeal.Read
import proofs.«180777_j10093173146228_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.GatedMlp
open scoped BigOperators

/-! ## The stages' operand indices, in coordinates -/

theorem first_lhs (t : Fin 4096) (o : Fin 28672) (k : Fin 4096) : lidx_main_v0 (ix2 t o) k = ix2 t k :=
  funext fun a => Fin.ext (by match a with | ⟨0, _⟩ => rfl | ⟨1, _⟩ => rfl)
theorem first_rhs (t : Fin 4096) (o : Fin 28672) (k : Fin 4096) : ridx_main_v0 (ix2 t o) k = ix2 o k :=
  funext fun a => Fin.ext (by match a with | ⟨0, _⟩ => rfl | ⟨1, _⟩ => rfl)
theorem gate_cols (t : Fin 4096) (i : Fin 14336) : idx_main_v1 (ix2 t i) = ix2 t (gateRow i) :=
  funext fun a => Fin.ext (by match a with | ⟨0, _⟩ => rfl | ⟨1, _⟩ => rfl)
theorem up_cols (t : Fin 4096) (i : Fin 14336) : idx_main_v2 (ix2 t i) = ix2 t (upRow i) :=
  funext fun a => Fin.ext (by match a with | ⟨0, _⟩ => rfl | ⟨1, _⟩ => rfl)
theorem second_lhs (t h : Fin 4096) (i : Fin 14336) : lidx_main_v5 (ix2 t h) i = ix2 t i :=
  funext fun a => Fin.ext (by match a with | ⟨0, _⟩ => rfl | ⟨1, _⟩ => rfl)
theorem second_rhs (t h : Fin 4096) (i : Fin 14336) : ridx_main_v5 (ix2 t h) i = ix2 h i :=
  funext fun a => Fin.ext (by match a with | ⟨0, _⟩ => rfl | ⟨1, _⟩ => rfl)

/-! ## The stages -/

variable (x0 : (⟨S4096x4096, .f32⟩ : BufTy).Contents (Elt Ideal)) (x1 : (⟨S28672x4096, .f32⟩ : BufTy).Contents (Elt Ideal))
  (x2 : (⟨S4096x14336, .f32⟩ : BufTy).Contents (Elt Ideal))

/-- The first product at (t, o): token `t` against stacked weight row `o`. -/
theorem first_product (t : Fin 4096) (o : Fin 28672) : val_main_v0 (F := Ideal) x0 x1 (ix2 t o) = proj x0 x1 t o := by
  rw [val_main_v0_apply]
  unfold proj
  simp only [first_lhs, first_rhs]

/-- Its left half of columns: the gate pre-activations. -/
theorem gate_half (t : Fin 4096) (i : Fin 14336) : val_main_v1 (F := Ideal) x0 x1 (ix2 t i) = proj x0 x1 t (gateRow i) := by
  rw [val_main_v1_apply, gate_cols, first_product]

/-- Its right half of columns: the up pre-activations. -/
theorem up_half (t : Fin 4096) (i : Fin 14336) : val_main_v2 (F := Ideal) x0 x1 (ix2 t i) = proj x0 x1 t (upRow i) := by
  rw [val_main_v2_apply, up_cols, first_product]

/-- The gated hidden unit: the gate times one over one plus the exponential of its negative, times the up value. -/
theorem hidden_stage (t : Fin 4096) (i : Fin 14336) : val_main_v4 (F := Ideal) x0 x1 (ix2 t i) = hidden x0 x1 t i := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, gate_half, up_half]
  show (proj x0 x1 t (gateRow i) * Ideal.div (Ideal.ofBits .f32 0x3F800000#32)
      (Ideal.ofBits .f32 0x3F800000#32 + Ideal.exp (-(proj x0 x1 t (gateRow i))))) * proj x0 x1 t (upRow i) = _
  rw [logistic_spelt]
  rfl

/-- The reference's result is the layer's function of its three arguments. -/
theorem result_eq : val_main_v5 (F := Ideal) x0 x1 x2 = G x0 x1 x2 := by
  funext j
  obtain ⟨t, h, rfl⟩ : ∃ (t h : Fin 4096), j = ix2 t h := ⟨j 0, j 1, eq_ix2 j⟩
  rw [val_main_v5_apply]
  show _ = ∑ i : Fin 14336, term x0 x1 x2 t h i
  refine Finset.sum_congr rfl fun i _ => ?_
  rw [second_lhs, second_rhs, hidden_stage]
  rfl

end Cert.ReferenceIdeal.RefValue

end
-- ==== Proof.lean ====
/-
  A gated feed-forward layer, fused into one kernel, against its plain formulation.

  With tokens x : [4096, 4096], stacked gate/up weights w : [28672, 4096] and down weights d : [4096, 14336], both
  programs compute, over the extended reals,

      out[t,h] = Σ_i ((g_ti · σ(g_ti)) · u_ti) · d[h,i],   g_ti = Σ_k x[t,k]·w[i,k],   u_ti = Σ_k x[t,k]·w[14336+i,k],

  with σ(g) = 1 / (1 + e^(-g)). The reference forms one product against all 28672 weight rows, slices it into its
  gate and up halves, spells σ with a negation, an exponential, a sum and a quotient, and contracts the 14336 hidden
  units in one product. The kernel walks a grid of 16 token tiles × 28 hidden blocks: at each point it forms the
  gate and up products of a 256-row token tile against 512 weight rows each, gates them with the logistic function,
  contracts the 512 hidden units against the matching columns of the down weights, and adds that to a running total
  kept in a scratch tile, which is zeroed at a token tile's first block and copied out at its last.

  The two results agree index by index: the logistic function is by definition the spelt-out quotient; changes of
  float format are the identity on the extended reals; and a sum over 14336 terms is the sum of its 28 consecutive
  blocks of 512 added to zero in order — addition on the extended reals is commutative and associative, so no
  finiteness of the inputs is used. The three frames are the generated frames of the two kernels and the
  reference's run with its result dropped; the idealization rewrote no operation.
-/
import proofs.«180777_j10093173146228_1_alg».proof.Defs
import proofs.«180777_j10093173146228_1_alg».proof.Proof.Gen.Kernel
import proofs.«180777_j10093173146228_1_alg».proof.Proof.Gen.Kernel.Skeleton
import proofs.«180777_j10093173146228_1_alg».proof.Proof.Gen.Kernel.Launch
import proofs.«180777_j10093173146228_1_alg».proof.Proof.Gen.Kernel.Points
import proofs.«180777_j10093173146228_1_alg».proof.Proof.Gen.Kernel.Frame
import proofs.«180777_j10093173146228_1_alg».proof.Proof.Gen.KernelIdeal
import proofs.«180777_j10093173146228_1_alg».proof.Proof.Gen.KernelIdeal.Skeleton
import proofs.«180777_j10093173146228_1_alg».proof.Proof.Gen.KernelIdeal.Launch
import proofs.«180777_j10093173146228_1_alg».proof.Proof.Gen.KernelIdeal.Points
import proofs.«180777_j10093173146228_1_alg».proof.Proof.Gen.KernelIdeal.Frame
import proofs.«180777_j10093173146228_1_alg».proof.Proof.Gen.ReferenceIdeal
import proofs.«180777_j10093173146228_1_alg».proof.Proof.Gen.Pre_finite_inputs
import proofs.«180777_j10093173146228_1_alg».proof.Proof.Gen.KernelIdeal.Value
import proofs.«180777_j10093173146228_1_alg».proof.Proof.Gen.ReferenceIdeal.Run
import proofs.«180777_j10093173146228_1_alg».proof.Proof.Gen.ReferenceIdeal.Read
import Idealize.ShloMosaic.Adequacy
import Idealize.ShloMosaic.Init

import proofs.«180777_j10093173146228_1_alg».proof.Proof.Final
import proofs.«180777_j10093173146228_1_alg».proof.Proof.RefSpec

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the layer's function `G` of the (agreeing) argument arrays: the kernel's by
    the running total over the grid, the reference's stage by stage. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
